-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x23x120200 : Shape := ⟨3, ![16, 23, 120200]⟩
abbrev S_ : Shape := ⟨0, ![]⟩

class Facts : Prop where
  bcast_S_S16x23x120200 : S_.BroadcastsInDim S16x23x120200 (![] : Fin 0 → Fin S16x23x120200.rank)
  reducesTo_S16x23x120200_S_d0_1_2 : S16x23x120200.ReducesTo [0, 1, 2] S_
  h_S_ : 0 < S_.numel

variable [Facts]

def fn {F : FTy → Type} [FloatOps F] (main_arg0 : FVec F S16x23x120200 .f32) : IVec S_ 1 :=
  let main_v0 : FVec F S16x23x120200 .f32 := Host.absf main_arg0
  let main_cst : FVec F S_ .f32 := constant S_ .f32 0x7F800000#32
  let main_v1 : FVec F S16x23x120200 .f32 := broadcastInDim S16x23x120200 ![] bcast_S_S16x23x120200 main_cst
  let main_v2 : IVec S16x23x120200 1 := cmpf .olt main_v0 main_v1
  let main_c : IVec S_ 1 := constantI S_ 1 1#1
  let main_v3 : IVec S_ 1 := (fun x v => Host.reduce IntOp.andi x v reducesTo_S16x23x120200_S_d0_1_2 h_S_) main_v2 main_c
  main_v3
-- ==== Kernel.lean ====
abbrev S16x23x120200 : Shape := ⟨3, ![16, 23, 120200]⟩
abbrev S368x120200 : Shape := ⟨2, ![368, 120200]⟩
abbrev S_ : Shape := ⟨0, ![]⟩
abbrev S368x120300 : Shape := ⟨2, ![368, 120300]⟩
abbrev S368x802x150 : Shape := ⟨3, ![368, 802, 150]⟩
abbrev S368x1000x200 : Shape := ⟨3, ![368, 1000, 200]⟩
abbrev S8x802x150 : Shape := ⟨3, ![8, 802, 150]⟩
abbrev S8x1000x200 : Shape := ⟨3, ![8, 1000, 200]⟩
abbrev S8x199x200 : Shape := ⟨3, ![8, 199, 200]⟩
abbrev S8x801x150 : Shape := ⟨3, ![8, 801, 150]⟩
abbrev S8x801x50 : Shape := ⟨3, ![8, 801, 50]⟩
abbrev S16x23x1000x200 : Shape := ⟨4, ![16, 23, 1000, 200]⟩
abbrev S1000 : Shape := ⟨1, ![1000]⟩
abbrev S16x23x1000 : Shape := ⟨3, ![16, 23, 1000]⟩

abbrev nBuf : Space → Nat
  | .hbm => 14
  | .vmem => 4
  | .smem => 0
  | _ => 0

abbrev bufTy : (tb : Table) → Fin (tcTables nBuf tb) → BufTy
  | .hbm, ⟨0, _⟩ => ⟨S16x23x120200, .f32⟩
  | .hbm, ⟨1, _⟩ => ⟨S368x120200, .f32⟩
  | .hbm, ⟨2, _⟩ => ⟨S_, .i32⟩
  | .hbm, ⟨3, _⟩ => ⟨S_, .f32⟩
  | .hbm, ⟨4, _⟩ => ⟨S368x120300, .f32⟩
  | .hbm, ⟨5, _⟩ => ⟨S368x802x150, .f32⟩
  | .hbm, ⟨6, _⟩ => ⟨S368x1000x200, .f32⟩
  | .hbm, ⟨7, _⟩ => ⟨S16x23x1000x200, .f32⟩
  | .hbm, ⟨8, _⟩ => ⟨S1000, .i32⟩
  | .hbm, ⟨9, _⟩ => ⟨S_, .i32⟩
  | .hbm, ⟨10, _⟩ => ⟨S1000, .i32⟩
  | .hbm, ⟨11, _⟩ => ⟨S1000, .i1⟩
  | .hbm, ⟨12, _⟩ => ⟨S1000, .f32⟩
  | .hbm, ⟨13, _⟩ => ⟨S16x23x1000, .f32⟩
  | .local _ .vmem, ⟨0, _⟩ => ⟨S8x802x150, .f32⟩
  | .local _ .vmem, ⟨1, _⟩ => ⟨S8x802x150, .f32⟩
  | .local _ .vmem, ⟨2, _⟩ => ⟨S8x1000x200, .f32⟩
  | .local _ .vmem, ⟨3, _⟩ => ⟨S8x1000x200, .f32⟩
  | _, _ => ⟨S16x23x120200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![46], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x802x150 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1000x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x23x120200_S368x120200 : S16x23x120200.ShapeCasts S368x120200
  pads_S368x120200_S368x120300_000_01000 : S368x120200.Pads (![0, 0] : Fin 2 → Nat) ![0, 100] ![0, 0] S368x120300
  h_S_ : 0 < S_.numel
  shapeCasts_S368x120300_S368x802x150 : S368x120300.ShapeCasts S368x802x150
  inb_S8x1000x200_S8x199x200_0_801_0 : ∀ a, (![0, 801, 0] : Fin 3 → Nat) a + S8x199x200.size a ≤ S8x1000x200.size a
  h_S8x199x200 : 0 < S8x199x200.numel
  inb_S8x802x150_S8x801x150_0_0_0 : ∀ a, (![0, 0, 0] : Fin 3 → Nat) a + S8x801x150.size a ≤ S8x802x150.size a
  h_S8x801x150 : 0 < S8x801x150.numel
  shapeCasts_S8x801x150_S8x801x150 : S8x801x150.ShapeCasts S8x801x150
  inb_S8x1000x200_S8x801x150_0_0_0 : ∀ a, (![0, 0, 0] : Fin 3 → Nat) a + S8x801x150.size a ≤ S8x1000x200.size a
  inb_S8x802x150_S8x801x50_0_1_0 : ∀ a, (![0, 1, 0] : Fin 3 → Nat) a + S8x801x50.size a ≤ S8x802x150.size a
  h_S8x801x50 : 0 < S8x801x50.numel
  shapeCasts_S8x801x50_S8x801x50 : S8x801x50.ShapeCasts S8x801x50
  inb_S8x1000x200_S8x801x50_0_0_150 : ∀ a, (![0, 0, 150] : Fin 3 → Nat) a + S8x801x50.size a ≤ S8x1000x200.size a
  shapeCasts_S368x1000x200_S16x23x1000x200 : S368x1000x200.ShapeCasts S16x23x1000x200
  bcast_S_S1000 : S_.BroadcastsInDim S1000 (![] : Fin 0 → Fin S1000.rank)
  bcast_S1000_S16x23x1000_2 : S1000.BroadcastsInDim S16x23x1000 (![2] : Fin 1 → Fin S16x23x1000.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x802x150.size a ≤ S368x802x150.size a
  hwx0_0 : ∀ i : grid0.Coords, EltTy.bits .f32 = 32 ∨ (Rect.block (s := S368x802x150) S8x802x150.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1000x200.size a ≤ S368x1000x200.size a
  hwx0_1 : ∀ i : grid0.Coords, EltTy.bits .f32 = 32 ∨ (Rect.block (s := S368x1000x200) S8x1000x200.size (cc0_transform_1 i) (hinb0_1 i)).WholeWords (EltTy.packing .f32)

variable [Facts₀]

abbrev win0_0 : Pipeline.Window sig grid0 :=
  Pipeline.Window.ofSpec (Memref.whole main_v2) S8x802x150.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x1000x200.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x23x120200 : Shape := ⟨3, ![16, 23, 120200]⟩
abbrev S1000 : Shape := ⟨1, ![1000]⟩
abbrev S_ : Shape := ⟨0, ![]⟩
abbrev S1000x1 : Shape := ⟨2, ![1000, 1]⟩
abbrev S200 : Shape := ⟨1, ![200]⟩
abbrev S1x200 : Shape := ⟨2, ![1, 200]⟩
abbrev S1000x200 : Shape := ⟨2, ![1000, 200]⟩
abbrev S1000x200x1 : Shape := ⟨3, ![1000, 200, 1]⟩
abbrev S1 : Shape := ⟨1, ![1]⟩
abbrev S1x1x1 : Shape := ⟨3, ![1, 1, 1]⟩
abbrev S16x23x1000x200 : Shape := ⟨4, ![16, 23, 1000, 200]⟩
abbrev S1x1x1000x1 : Shape := ⟨4, ![1, 1, 1000, 1]⟩
abbrev S16x23x1000 : Shape := ⟨3, ![16, 23, 1000]⟩

abbrev nBuf : Space → Nat
  | .hbm => 52
  | .vmem => 0
  | .smem => 0
  | _ => 0

abbrev bufTy : (tb : Table) → Fin (tcTables nBuf tb) → BufTy
  | .hbm, ⟨0, _⟩ => ⟨S16x23x120200, .f32⟩
  | .hbm, ⟨1, _⟩ => ⟨S1000, .i32⟩
  | .hbm, ⟨2, _⟩ => ⟨S_, .i32⟩
  | .hbm, ⟨3, _⟩ => ⟨S1000, .i32⟩
  | .hbm, ⟨4, _⟩ => ⟨S1000, .i32⟩
  | .hbm, ⟨5, _⟩ => ⟨S1000x1, .i32⟩
  | .hbm, ⟨6, _⟩ => ⟨S200, .i32⟩
  | .hbm, ⟨7, _⟩ => ⟨S1x200, .i32⟩
  | .hbm, ⟨8, _⟩ => ⟨S1000x200, .i32⟩
  | .hbm, ⟨9, _⟩ => ⟨S1000x200, .i32⟩
  | .hbm, ⟨10, _⟩ => ⟨S1000x200, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1000x200, .i32⟩
  | .hbm, ⟨15, _⟩ => ⟨S1000x200, .i32⟩
  | .hbm, ⟨16, _⟩ => ⟨S_, .i32⟩
  | .hbm, ⟨17, _⟩ => ⟨S1000x200, .i32⟩
  | .hbm, ⟨18, _⟩ => ⟨S1000x200, .i32⟩
  | .hbm, ⟨19, _⟩ => ⟨S_, .i32⟩
  | .hbm, ⟨20, _⟩ => ⟨S1000x200, .i32⟩
  | .hbm, ⟨21, _⟩ => ⟨S1000x200, .i1⟩
  | .hbm, ⟨22, _⟩ => ⟨S_, .i32⟩
  | .hbm, ⟨23, _⟩ => ⟨S1000x200, .i32⟩
  | .hbm, ⟨24, _⟩ => ⟨S1000x200, .i32⟩
  | .hbm, ⟨25, _⟩ => ⟨S1000x200, .i32⟩
  | .hbm, ⟨26, _⟩ => ⟨S1000x200x1, .i32⟩
  | .hbm, ⟨27, _⟩ => ⟨S1, .i32⟩
  | .hbm, ⟨28, _⟩ => ⟨S_, .i32⟩
  | .hbm, ⟨29, _⟩ => ⟨S1000x200x1, .i32⟩
  | .hbm, ⟨30, _⟩ => ⟨S1000x200x1, .i1⟩
  | .hbm, ⟨31, _⟩ => ⟨S1x1x1, .i32⟩
  | .hbm, ⟨32, _⟩ => ⟨S1000x200x1, .i32⟩
  | .hbm, ⟨33, _⟩ => ⟨S1000x200x1, .i1⟩
  | .hbm, ⟨34, _⟩ => ⟨S1000x200x1, .i1⟩
  | .hbm, ⟨35, _⟩ => ⟨S_, .i1⟩
  | .hbm, ⟨36, _⟩ => ⟨S1000x200, .i1⟩
  | .hbm, ⟨37, _⟩ => ⟨S16x23x1000x200, .f32⟩
  | .hbm, ⟨38, _⟩ => ⟨S16x23x1000x200, .i1⟩
  | .hbm, ⟨39, _⟩ => ⟨S_, .f32⟩
  | .hbm, ⟨40, _⟩ => ⟨S16x23x1000x200, .f32⟩
  | .hbm, ⟨41, _⟩ => ⟨S16x23x1000x200, .f32⟩
  | .hbm, ⟨42, _⟩ => ⟨S1000, .i32⟩
  | .hbm, ⟨43, _⟩ => ⟨S_, .i32⟩
  | .hbm, ⟨44, _⟩ => ⟨S1000, .i32⟩
  | .hbm, ⟨45, _⟩ => ⟨S1000, .i1⟩
  | .hbm, ⟨46, _⟩ => ⟨S1x1x1000x1, .i1⟩
  | .hbm, ⟨47, _⟩ => ⟨S1x1x1000x1, .f32⟩
  | .hbm, ⟨48, _⟩ => ⟨S16x23x1000x200, .f32⟩
  | .hbm, ⟨49, _⟩ => ⟨S16x23x1000x200, .f32⟩
  | .hbm, ⟨50, _⟩ => ⟨S1000, .f32⟩
  | .hbm, ⟨51, _⟩ => ⟨S16x23x1000, .f32⟩
  | _, _ => ⟨S16x23x120200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_call1_cst : Ref sig .tc := ⟨.hbm, 39, rfl⟩
abbrev main_call1_v15 : Ref sig .tc := ⟨.hbm, 40, rfl⟩
abbrev main_v10 : Ref sig .tc := ⟨.hbm, 41, rfl⟩
abbrev main_v11 : Ref sig .tc := ⟨.hbm, 42, rfl⟩
abbrev main_c_2 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]

class Facts₀ : Prop where
  bcast_S_S1000 : S_.BroadcastsInDim S1000 (![] : Fin 0 → Fin S1000.rank)
  bcast_S1000_S1000x1_0 : S1000.BroadcastsInDim S1000x1 (![0] : Fin 1 → Fin S1000x1.rank)
  bcast_S200_S1x200_1 : S200.BroadcastsInDim S1x200 (![1] : Fin 1 → Fin S1x200.rank)
  bcast_S1000x1_S1000x200_0_1 : S1000x1.BroadcastsInDim S1000x200 (![0, 1] : Fin 2 → Fin S1000x200.rank)
  bcast_S1x200_S1000x200_0_1 : S1x200.BroadcastsInDim S1000x200 (![0, 1] : Fin 2 → Fin S1000x200.rank)
  bcast_S_S1000x200 : S_.BroadcastsInDim S1000x200 (![] : Fin 0 → Fin S1000x200.rank)
  bcast_S1000x200_S1000x200x1_0_1 : S1000x200.BroadcastsInDim S1000x200x1 (![0, 1] : Fin 2 → Fin S1000x200x1.rank)
  bcast_S_S1000x200x1 : S_.BroadcastsInDim S1000x200x1 (![] : Fin 0 → Fin S1000x200x1.rank)
  bcast_S1_S1x1x1_2 : S1.BroadcastsInDim S1x1x1 (![2] : Fin 1 → Fin S1x1x1.rank)
  bcast_S1x1x1_S1000x200x1_0_1_2 : S1x1x1.BroadcastsInDim S1000x200x1 (![0, 1, 2] : Fin 3 → Fin S1000x200x1.rank)
  reducesTo_S1000x200x1_S1000x200_d2 : S1000x200x1.ReducesTo [2] S1000x200
  h_S_ : 0 < S_.numel
  bcast_S1000x200_S16x23x1000x200_2_3 : S1000x200.BroadcastsInDim S16x23x1000x200 (![2, 3] : Fin 2 → Fin S16x23x1000x200.rank)
  bcast_S_S16x23x1000x200 : S_.BroadcastsInDim S16x23x1000x200 (![] : Fin 0 → Fin S16x23x1000x200.rank)
  bcast_S1000_S1x1x1000x1_2 : S1000.BroadcastsInDim S1x1x1000x1 (![2] : Fin 1 → Fin S1x1x1000x1.rank)
  bcast_S1x1x1000x1_S16x23x1000x200_0_1_2_3 : S1x1x1000x1.BroadcastsInDim S16x23x1000x200 (![0, 1, 2, 3] : Fin 4 → Fin S16x23x1000x200.rank)
  bcast_S1000_S16x23x1000_2 : S1000.BroadcastsInDim S16x23x1000 (![2] : Fin 1 → Fin S16x23x1000.rank)
  gather_S16x23x120200_S1000x200x1_S16x23x1000x200_01_2_n_n_2_2_16231_wf : GatherDims.WF S16x23x120200 S1000x200x1 S16x23x1000x200 [0, 1] [2] [] [2] [] 2 ![16, 23, 1]

variable [Facts₀]

def gather_S16x23x120200_S1000x200x1_S16x23x1000x200_01_2_n_n_2_2_16231 : GatherDims S16x23x120200 S1000x200x1 S16x23x1000x200 where
  offsetDims := [0, 1]
  collapsedSliceDims := [2]
  operandBatchingDims := []
  startIndicesBatchingDims := []
  startIndexMap := [2]
  indexVectorDim := 2
  sliceSizes := ![16, 23, 1]
  wf := gather_S16x23x120200_S1000x200x1_S16x23x1000x200_01_2_n_n_2_2_16231_wf

class Facts : Prop extends Facts₀ where

variable [Facts]
-- ==== Proof.KBlock.lean ====
/-
  What one grid point of the kernel leaves in its output block.

  A grid point holds 8 rows. Its input block `X` is [8, 802, 150]: row `r`'s padded signal cut into 802
  chunks of 150 samples. Its output block is [8, 1000, 200]. The body stores three rectangles: zeros in window
  slots 801..999; chunk `p` in entries 0..149 of window `p`, for `p` = 0..800; and the first 50 samples of chunk
  `p + 1` in entries 150..199 of window `p`. The three rectangles tile the block, so the block is one function of
  `X`: at `(r, p, j)` it is `X (r, p, j)` for `j < 150`, `X (r, p + 1, j - 150)` for `j ≥ 150`, and zero for `p ≥ 801`.
-/
import proofs.«419308_j3513283248782_3_alg».proof.Proof.Gen.KernelIdeal.Frame
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.Tactic
open Idealize.SL.Sem Idealize.ShloMosaic.ValueIdx

variable {F : FTy → Type} [FloatOps F]

/-- Entry `(r, p, j)` of the output block made from the input block `X`. -/
def blockAt (X : Vec F S8x802x150 .f32) (r : Fin 8) (p : Fin 1000) (j : Fin 200) : Elt F .f32 :=
  if hp : p.val < 801 then
    (if hj : j.val < 150 then X (ix3 r ⟨p.val, by omega⟩ ⟨j.val, hj⟩)
     else X (ix3 r ⟨p.val + 1, by omega⟩ ⟨j.val - 150, by omega⟩))
  else Scalar.ofBits .f32 0x00000000#32

/-- The output block made from the input block `X`. -/
def blockOf (X : Vec F S8x802x150 .f32) : Vec F S8x1000x200 .f32 := fun y => blockAt X (y 0) (y 1) (y 2)

theorem blockOf_apply (X : Vec F S8x802x150 .f32) (r : Fin 8) (p : Fin 1000) (j : Fin 200) :
    blockOf X (ix3 r p j) = blockAt X r p j := rfl

/-- The zero rectangle: window slots 801..999. -/
theorem piece_zero (X : Vec F S8x802x150 .f32)
    (x : (Rect.unit (s := S8x1000x200) ![0, 801, 0] S8x199x200.size inb_S8x1000x200_S8x199x200_0_801_0).shape.Idx) :
    (k0_pay1 (F := F)) x
      = blockOf X ((Rect.unit (s := S8x1000x200) ![0, 801, 0] S8x199x200.size inb_S8x1000x200_S8x199x200_0_801_0).emb x) := by
  have h1 : (x 1).val < 199 := (x 1).isLt
  show _ = blockAt X _ _ _
  unfold blockAt
  rw [dif_neg (by
    show ¬ (801 + 1 * (x 1).val < 801)
    omega)]
  rfl

/-- The main rectangle: entries 0..149 of windows 0..800 are the chunks themselves. -/
theorem piece_main (X : Vec F S8x802x150 .f32)
    (x : (Rect.unit (s := S8x1000x200) ![0, 0, 0] S8x801x150.size inb_S8x1000x200_S8x801x150_0_0_0).shape.Idx) :
    k0_pay2 (View.ld X (Rect.unit (s := S8x802x150) ![0, 0, 0] S8x801x150.size inb_S8x802x150_S8x801x150_0_0_0)) x
      = blockOf X ((Rect.unit (s := S8x1000x200) ![0, 0, 0] S8x801x150.size inb_S8x1000x200_S8x801x150_0_0_0).emb x) := by
  have h1 : (x 1).val < 801 := (x 1).isLt
  have h2 : (x 2).val < 150 := (x 2).isLt
  unfold k0_pay2
  rw [shapeCast_self]
  show X _ = blockAt X _ _ _
  unfold blockAt
  rw [dif_pos (by
    show 0 + 1 * (x 1).val < 801
    omega), dif_pos (by
    show 0 + 1 * (x 2).val < 150
    omega)]
  refine congrArg X (funext fun a => Fin.ext ?_)
  match a with
  | ⟨0, _⟩ => rfl
  | ⟨1, _⟩ => rfl
  | ⟨2, _⟩ => rfl

/-- The overlap rectangle: entries 150..199 of window `p` are the first 50 samples of chunk `p + 1`. -/
theorem piece_overlap (X : Vec F S8x802x150 .f32)
    (x : (Rect.unit (s := S8x1000x200) ![0, 0, 150] S8x801x50.size inb_S8x1000x200_S8x801x50_0_0_150).shape.Idx) :
    k0_pay3 (View.ld X (Rect.unit (s := S8x802x150) ![0, 1, 0] S8x801x50.size inb_S8x802x150_S8x801x50_0_1_0)) x
      = blockOf X ((Rect.unit (s := S8x1000x200) ![0, 0, 150] S8x801x50.size inb_S8x1000x200_S8x801x50_0_0_150).emb x) := by
  have h1 : (x 1).val < 801 := (x 1).isLt
  have h2 : (x 2).val < 50 := (x 2).isLt
  unfold k0_pay3
  rw [shapeCast_self]
  show X _ = blockAt X _ _ _
  unfold blockAt
  rw [dif_pos (by
    show 0 + 1 * (x 1).val < 801
    omega), dif_neg (by
    show ¬ (150 + 1 * (x 2).val < 150)
    omega)]
  refine congrArg X (funext fun a => Fin.ext ?_)
  match a with
  | ⟨0, _⟩ => rfl
  | ⟨1, _⟩ =>
    show 1 + 1 * (x 1).val = 0 + 1 * (x 1).val + 1
    omega
  | ⟨2, _⟩ =>
    show 0 + 1 * (x 2).val = 150 + 1 * (x 2).val - 150
    omega

/-- What the body leaves in its output block, whatever staging buffers it runs on: the block made from its
    input block. -/
theorem out_eq_blockOf (c : Dev nD) (i : grid0.Coords) (arg1 : Memref sig .tc .vmem S8x802x150 .f32) (harg1 : arg1.IsWhole)
    (arg2 : Memref sig .tc .vmem S8x1000x200 .f32) (harg2 : arg2.IsWhole) (x0 : Vec F S8x802x150 .f32) :
    out0_A_1 c i arg1 harg1 arg2 harg2 x0 = blockOf x0 := by
  unfold out0_A_1
  rw [View.read_writes_eq_canon _ _ _ (cover0_A_1 c i arg1 harg1 arg2 harg2 x0)]
  funext y
  refine View.canon_apply_of_pieces (blockOf x0) _ ?_ y (cover0_A_1 c i arg1 harg1 arg2 harg2 x0 y)
  unfold kernelRun0_A
  dsimp only
  sl_unfold_words
  simp only [View.readAt_eq_ld, harg1.read_unread]
  intro p hp
  simp only [List.mem_cons, List.mem_nil_iff, or_false] at hp
  rcases hp with rfl | rfl | rfl
  · exact piece_overlap x0
  · exact piece_main x0
  · exact piece_zero x0

end Cert.KernelIdeal.Hand

end
-- ==== Proof.KPrefix.lean ====
/-
  The array the kernel's input window reads.

  Before the region the signal [16, 23, 120200] is viewed as 368 rows of 120200 samples, each row padded with 100
  more entries to 120300 = 802 · 150, and viewed again as [368, 802, 150]: row `R`, chunk `q`, entry `k` is sample
  `150 q + k` of row `R` — row `(R / 23, R % 23)` of the signal — whenever that sample exists (`150 q + k < 120200`);
  the other entries are padding, and the kernel's result never depends on them.
-/
import proofs.«419308_j3513283248782_3_alg».proof.Proof.Gen.KernelIdeal.Frame
import Idealize.ShloMosaic.Lib.Pipeline.Value
import Idealize.ShloMosaic.Lib.ValueIdx
import Idealize.ShloMosaic.Lib.KernelVsHost
import Idealize.ShloMosaic.Lib.StableHlo.Run

noncomputable section

namespace Cert.KernelIdeal.Hand

open Cert.KernelIdeal Cert.KernelIdeal.Gen Idealize.ShloMosaic Idealize.ShloMosaic.TcCoe Idealize.ShloMosaic.Tactic
open Idealize.SL.Sem Idealize.ShloMosaic.ValueIdx Idealize.ShloMosaic.StableHlo

variable {F : FTy → Type} [FloatOps F]
variable (m : (ℓ : Loc nD τ sig) → Buf (Elt F) ℓ)

/-- The chunked, padded rows as a function of the signal `x`. -/
def chunked (x : Vec F S16x23x120200 .f32) : Vec F S368x802x150 .f32 :=
  shapeCast S368x802x150
    (pad S368x120300 ![0, 0] ![0, 100] ![0, 0] (shapeCast S368x120200 x shapeCasts_S16x23x120200_S368x120200)
      (sitofp (F := F) .f32 (constantI S_ 32 0#32)) pads_S368x120200_S368x120300_000_01000 h_S_)
    shapeCasts_S368x120300_S368x802x150

/-- The input window's array, as the region finds it, is the chunked padded rows of the launch signal. -/
theorem V_main_v2 (c : Dev nD) :
    (V m c main_v2 : Vec F S368x802x150 .f32) = chunked (m ((c : Thread nD τ).loc main_arg0)) := by
  dsimp only [Gen.V, Gen.V0]
  simp only [hostOps0, hostOps0_1, hostOps0_2, List.flatten_cons, List.flatten_nil, List.append_nil, List.cons_append,
    List.nil_append]
  after_results
  rfl

/-- Entry `k` of chunk `q` of row `R` is sample `150 q + k` of signal row `(R / 23, R % 23)`, where that sample exists. -/
theorem chunked_apply (x : Vec F S16x23x120200 .f32) (R : Fin 368) (q : Fin 802) (k : Fin 150)
    (h : 150 * q.val + k.val < 120200) :
    chunked x (ix3 R q k)
      = x (ix3 (⟨R.val / 23, by omega⟩ : Fin 16) (⟨R.val % 23, by omega⟩ : Fin 23) (⟨150 * q.val + k.val, h⟩ : Fin 120200)) := by
  unfold chunked
  refine (shapeCast_apply _ _ (ix3 R q k) (ix2 R (⟨150 * q.val + k.val, by omega⟩ : Fin 120300)) ?_).trans ?_
  · rw [Shape.rowMajor_val_two, Shape.rowMajor_val_three]
    show R.val * 120300 + (150 * q.val + k.val) = (R.val * 802 + q.val) * 150 + k.val
    omega
  refine (pad_apply_of_inside _ _ _ _ _ _ _ (ix2 R (⟨150 * q.val + k.val, by omega⟩ : Fin 120300))
    (ix2 R (⟨150 * q.val + k.val, h⟩ : Fin 120200)) ?_).trans ?_
  · intro a
    match a with
    | ⟨0, _⟩ =>
      show R.val = 0 + R.val * (0 + 1)
      omega
    | ⟨1, _⟩ =>
      show 150 * q.val + k.val = 0 + (150 * q.val + k.val) * (0 + 1)
      omega
  refine shapeCast_apply _ _ _ _ ?_
  rw [Shape.rowMajor_val_two, Shape.rowMajor_val_three]
  show (R.val / 23 * 23 + R.val % 23) * 120200 + (150 * q.val + k.val) = R.val * 120200 + (150 * q.val + k.val)
  have := Nat.div_add_mod R.val 23
  rw [show R.val / 23 * 23 + R.val % 23 = R.val by omega]

end Cert.KernelIdeal.Hand

end
-- ==== Proof.Spec.lean ====
/-
  The windows array, as one function of the signal.

  A signal row has 120200 samples. Window `p` starts at sample `150 p` and is 200 samples long, so entry
  `j` of window `p` is sample `150 p + j`. The windows that fit whole are `p = 0, …, 800`: the last of them
  ends at sample `150 · 800 + 199 = 120199`, the row's last. The array has 1000 window slots; slots
  `801, …, 999` hold the padding value `z`.
-/
import Idealize.ShloMosaic.PureOps.Ideal
import Idealize.ShloMosaic.Lib.ValueIdx

namespace Cert.Windows

open Idealize.ShloMosaic Idealize.ShloMosaic.ValueIdx

/-- Entry `j` of a whole window `p` is a sample of the row. -/
theorem pos_lt {p j : Nat} (hp : p < 801) (hj : j < 200) : 150 * p + j < 120200 := by omega

/-- Entry `(b, c, p, j)` of the windows array of `x`: sample `150 p + j` of row `(b, c)` for a whole window,
    the padding value `z` for a slot past the last whole window. -/
def windowsAt {α : Type} (z : α) (x : (⟨3, ![16, 23, 120200]⟩ : Shape).Idx → α)
    (b : Fin 16) (c : Fin 23) (p : Fin 1000) (j : Fin 200) : α :=
  if h : p.val < 801 then x (ix3 b c ⟨150 * p.val + j.val, pos_lt h j.isLt⟩) else z

/-- The windows array of `x` with padding value `z`. -/
def windows {α : Type} (z : α) (x : (⟨3, ![16, 23, 120200]⟩ : Shape).Idx → α) :
    (⟨4, ![16, 23, 1000, 200]⟩ : Shape).Idx → α :=
  fun i => windowsAt z x (i 0) (i 1) (i 2) (i 3)

theorem windows_apply {α : Type} (z : α) (x : (⟨3, ![16, 23, 120200]⟩ : Shape).Idx → α)
    (b : Fin 16) (c : Fin 23) (p : Fin 1000) (j : Fin 200) :
    windows z x (ix4 b c p j) = windowsAt z x b c p j := rfl

/-- In a whole window the entry is the sample. -/
theorem windowsAt_of_lt {α : Type} (z : α) (x : (⟨3, ![16, 23, 120200]⟩ : Shape).Idx → α)
    (b : Fin 16) (c : Fin 23) (p : Fin 1000) (j : Fin 200) (h : p.val < 801) :
    windowsAt z x b c p j = x (ix3 b c ⟨150 * p.val + j.val, pos_lt h j.isLt⟩) := dif_pos h

/-- Past the last whole window the entry is the padding value. -/
theorem windowsAt_of_not_lt {α : Type} (z : α) (x : (⟨3, ![16, 23, 120200]⟩ : Shape).Idx → α)
    (b : Fin 16) (c : Fin 23) (p : Fin 1000) (j : Fin 200) (h : ¬ p.val < 801) :
    windowsAt z x b c p j = z := dif_neg h

end Cert.Windows
-- ==== Proof.KFinal.lean ====
/-
  The kernel's result array, and the program's two results.

  Grid point `t` handles rows `8 t, …, 8 t + 7`: its input block is those rows of the chunked signal, its
  output block those rows of the result. Entry `(r, p, j)` of the output block is chunk entry `(p, j)` for `j < 150`
  and chunk entry `(p + 1, j - 150)` for `j ≥ 150`, that is sample `150 p + j` of the row in both cases, for a
  whole window `p < 801`; and zero for a slot `p ≥ 801`. The 46 blocks tile the [368, 1000, 200] array, which is
  then viewed as [16, 23, 1000, 200]: row `R` is signal row `(R / 23, R % 23)`.
-/
import proofs.«419308_j3513283248782_3_alg».proof.Proof.KBlock
import proofs.«419308_j3513283248782_3_alg».proof.Proof.KPrefix
import proofs.«419308_j3513283248782_3_alg».proof.Proof.Spec

noncomputable section

namespace Cert.KernelIdeal.Hand

open Cert.KernelIdeal Cert.KernelIdeal.Gen Idealize.ShloMosaic Idealize.ShloMosaic.TcCoe Idealize.ShloMosaic.Tactic
open Idealize.SL.Sem Idealize.ShloMosaic.ValueIdx Idealize.ShloMosaic.StableHlo
open Idealize.ShloMosaic.Pipeline (Dat Cfg Window)
open Cert.Windows

variable {F : FTy → Type} [FloatOps F]
variable (m : (ℓ : Loc nD τ sig) → Buf (Elt F) ℓ) (ρ : Dev nD → PrngReg)

/-- The kernel's padding value: the float zero. -/
abbrev zeroF : Elt F .f32 := Scalar.ofBits (F := F) .f32 0x00000000#32

/-- Entry `(R, p, j)` of the kernel's result: the windows array of the signal, its rows numbered `R = 23 b + c`. -/
def rowAt (x : Vec F S16x23x120200 .f32) (R : Fin 368) (p : Fin 1000) (j : Fin 200) : Elt F .f32 :=
  windowsAt (zeroF (F := F)) x (⟨R.val / 23, by omega⟩ : Fin 16) (⟨R.val % 23, by omega⟩ : Fin 23) p j

/-- The kernel's result array as a function of the signal. -/
def rowsWindows (x : Vec F S16x23x120200 .f32) : Vec F S368x1000x200 .f32 := fun i => rowAt x (i 0) (i 1) (i 2)

/-- The output block made from rows `8 T, …, 8 T + 7` of the chunked signal is those rows of the result. -/
theorem blockAt_rows (x : Vec F S16x23x120200 .f32) (T : Nat) (hT : T < 46) (X : Vec F S8x802x150 .f32)
    (hX : ∀ (r : Fin 8) (q : Fin 802) (k : Fin 150), X (ix3 r q k) = chunked x (ix3 (⟨T * 8 + r.val, by omega⟩ : Fin 368) q k))
    (r : Fin 8) (p : Fin 1000) (j : Fin 200) :
    blockAt X r p j = rowAt x (⟨T * 8 + r.val, by omega⟩ : Fin 368) p j := by
  unfold blockAt rowAt
  by_cases hp : p.val < 801
  · rw [dif_pos hp, windowsAt_of_lt _ _ _ _ _ _ hp]
    by_cases hj : j.val < 150
    · rw [dif_pos hj, hX, chunked_apply x _ _ _ (by show 150 * p.val + j.val < 120200; omega)]
    · rw [dif_neg hj, hX, chunked_apply x _ _ _ (by show 150 * (p.val + 1) + (j.val - 150) < 120200; have := j.isLt; omega)]
      refine congrArg x (funext fun a => Fin.ext ?_)
      match a with
      | ⟨0, _⟩ => rfl
      | ⟨1, _⟩ => rfl
      | ⟨2, _⟩ =>
        show 150 * (p.val + 1) + (j.val - 150) = 150 * p.val + j.val
        have := j.isLt
        omega
  · rw [dif_neg hp, windowsAt_of_not_lt _ _ _ _ _ _ hp]

/-- The printed index maps over the grid: point `t` reads and writes row block `t`. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 45 :=
  (by decide +kernel : ∀ t : Fin grid0.N, _)

/-- Every row block is some point's. -/
theorem idx_onto : ∀ q0 : Fin 46, ∃ t : Fin cfg0.N, win0_1.index t = ![q0.val, 0, 0] :=
  (by decide +kernel : ∀ q0 : Fin 46, ∃ t : Fin grid0.N, win0_1.index t = ![q0.val, 0, 0])

/-- Point `t`'s input block is rows `8 T, …` of the chunked signal, `T` its row block. -/
theorem iblk_rows (c : Dev nD) (t : Fin cfg0.N) (r : Fin 8) (q : Fin 802) (k : Fin 150) :
    iblk m c 0 t (ix3 r q k)
      = chunked (m ((c : Thread nD τ).loc main_arg0))
          (ix3 (⟨win0_1.index t (0 : Fin 3) * 8 + r.val, by have := (idx_facts t).2.2.2.2.2; omega⟩ : Fin 368) q k) := by
  obtain ⟨e0, e1, e2, e3, e4, e5⟩ := idx_facts t
  rw [← V_main_v2 m c]
  show V m c main_v2 (((cfg0.win 0).blk t).view.emb (ix3 r q k)) = V m c main_v2 _
  refine congrArg (V m c main_v2) (funext fun a => Fin.ext ?_)
  match a with
  | ⟨0, _⟩ =>
    show win0_0.index t (0 : Fin 3) * 8 + 1 * r.val = win0_1.index t (0 : Fin 3) * 8 + r.val
    omega
  | ⟨1, _⟩ =>
    show win0_0.index t (1 : Fin 3) * 802 + 1 * q.val = q.val
    omega
  | ⟨2, _⟩ =>
    show win0_0.index t (2 : Fin 3) * 150 + 1 * k.val = k.val
    omega

/-- WHAT POINT `t` WRITES BACK is block `t` of the result array of the launch signal. -/
theorem flushed_eq (c : Dev nD) (t : Fin cfg0.N) :
    (dats m 0 c).flushed 1 t
      = ((cfg0.win 1).blk t).view.read (Elt F) (rowsWindows (m ((c : Thread nD τ).loc main_arg0))) := by
  show (cfg0.win 1).cut (grid0.coords t) ((dats m 0 c).after 1 t) = _
  rw [after0_1]
  unfold outsAt0
  rw [out_eq_blockOf]
  obtain ⟨e0, e1, e2, e3, e4, e5⟩ := idx_facts t
  funext y
  obtain ⟨r, p, j, rfl⟩ : ∃ (r : Fin 8) (p : Fin 1000) (j : Fin 200), y = ix3 r p j := ⟨y 0, y 1, y 2, eq_ix3 y⟩
  show blockAt (iblk m c 0 t) r p j = rowsWindows _ (((cfg0.win 1).blk t).view.emb (ix3 r p j))
  rw [blockAt_rows (m ((c : Thread nD τ).loc main_arg0)) (win0_1.index t (0 : Fin 3)) (by omega) (iblk m c 0 t)
    (fun r q k => iblk_rows m c t r q k) r p j]
  show rowAt _ _ p j = rowAt _ _ _ _
  congr 1
  · refine Fin.ext ?_
    show win0_1.index t (0 : Fin 3) * 8 + r.val = win0_1.index t (0 : Fin 3) * 8 + 1 * r.val
    omega
  · refine Fin.ext ?_
    show p.val = win0_1.index t (1 : Fin 3) * 1000 + 1 * p.val
    omega
  · refine Fin.ext ?_
    show j.val = win0_1.index t (2 : Fin 3) * 200 + 1 * j.val
    omega

/-- An index of the result array is in point `t`'s block iff each coordinate is in the block's range on its axis. -/
theorem mem_blk (t : Fin cfg0.N) (i : S368x1000x200.Idx) :
    i ∈ ((cfg0.win 1).blk t).view.set
      ↔ ∀ a : Fin 3, win0_1.index t a * S8x1000x200.size a ≤ (i a).val
          ∧ (i a).val < win0_1.index t a * S8x1000x200.size a + S8x1000x200.size a := by
  show i ∈ ((View.whole main_v3).slice (win0_1.rect t)).set ↔ _
  rw [View.set_slice_whole, Rect.mem_set_unit]
  exact Iff.rfl

/-- The blocks cover the result array: row `R` is in row block `R / 8`. -/
theorem cover (i : S368x1000x200.Idx) :
    ∃ t : Fin cfg0.N, (cfg0.win 1).flush t = true ∧ i ∈ ((cfg0.win 1).blk t).view.set := by
  have hi0 : (i 0).val < 368 := (i 0).isLt
  have hi1 : (i 1).val < 1000 := (i 1).isLt
  have hi2 : (i 2).val < 200 := (i 2).isLt
  obtain ⟨t, ht⟩ := idx_onto ⟨(i 0).val / 8, by omega⟩
  have q0 : win0_1.index t (0 : Fin 3) = (i 0).val / 8 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 8 ≤ (i 0).val ∧ (i 0).val < win0_1.index t (0 : Fin 3) * 8 + 8
    omega
  | ⟨1, _⟩ =>
    show win0_1.index t (1 : Fin 3) * 1000 ≤ (i 1).val ∧ (i 1).val < win0_1.index t (1 : Fin 3) * 1000 + 1000
    omega
  | ⟨2, _⟩ =>
    show win0_1.index t (2 : Fin 3) * 200 ≤ (i 2).val ∧ (i 2).val < win0_1.index t (2 : Fin 3) * 200 + 200
    omega

/-- THE RESULT ARRAY after the run is the windows array of the launch signal, rows numbered `23 b + c`. -/
theorem final (c : Dev nD) :
    (dats m 0 c).arrAt 1 cfg0.N = rowsWindows (m ((c : Thread nD τ).loc main_arg0)) :=
  (dats m 0 c).arrAt_eq_of_cover 1 _ (fun t _ => flushed_eq m c t) cover

end Cert.KernelIdeal.Hand

end
-- ==== Proof.KRun.lean ====
/-
  The kernel program's run, read: its two results as functions of the launch signal.

  After the region the [368, 1000, 200] result array is viewed as [16, 23, 1000, 200] — row `23 b + c` becomes
  row `(b, c)` — which makes it the windows array of the signal; and the mask is computed by host operations that
  read no array of the region.
-/
import proofs.«419308_j3513283248782_3_alg».proof.Proof.KFinal

noncomputable section

namespace Cert.KernelIdeal.Hand

open Cert.KernelIdeal Cert.KernelIdeal.Gen Idealize.ShloMosaic Idealize.ShloMosaic.TcCoe Idealize.ShloMosaic.Tactic
open Idealize.SL.Sem Idealize.ShloMosaic.ValueIdx Idealize.ShloMosaic.StableHlo
open Idealize.ShloMosaic.Pipeline (Dat Cfg Window)
open Cert.Windows

variable {F : FTy → Type} [FloatOps F]
variable (m : (ℓ : Loc nD τ sig) → Buf (Elt F) ℓ) (ρ : Dev nD → PrngReg)

/-- The mask: the flag "window `p` is whole" (`p < 801`) as a float, the same for every row. -/
def maskK : FVec F S16x23x1000 .f32 :=
  broadcastInDim S16x23x1000 ![2] bcast_S1000_S16x23x1000_2
    (uitofp (F := F) .f32 (cmpi .slt (iotaInDim S1000 32 0) (broadcastInDim S1000 ![] bcast_S_S1000 (constantI S_ 32 801#32))))

/-- The result array viewed as [16, 23, 1000, 200] is the windows array. -/
theorem view_rows (x : Vec F S16x23x120200 .f32) :
    shapeCast S16x23x1000x200 (rowsWindows x) shapeCasts_S368x1000x200_S16x23x1000x200 = windows (zeroF (F := F)) x := by
  funext i
  obtain ⟨b, c, p, j, rfl⟩ : ∃ (b : Fin 16) (c : Fin 23) (p : Fin 1000) (j : Fin 200), i = ix4 b c p j :=
    ⟨i 0, i 1, i 2, i 3, eq_ix4 i⟩
  refine (shapeCast_apply _ _ (ix4 b c p j) (ix3 (⟨b.val * 23 + c.val, by omega⟩ : Fin 368) p j) ?_).trans ?_
  · rw [Shape.rowMajor_val_three, Shape.rowMajor_val_four]
    rfl
  show rowAt x _ p j = windowsAt _ x b c p j
  unfold rowAt
  congr 1
  · refine Fin.ext ?_
    show (b.val * 23 + c.val) / 23 = b.val
    have := c.isLt
    omega
  · refine Fin.ext ?_
    show (b.val * 23 + c.val) % 23 = c.val
    have := c.isLt
    omega

/-- The first result after the host operations that follow the region. -/
theorem tail_v4 (c : Dev nD) :
    Pipeline.afterTail₀ cfgs (dats m) 0 (V0 m) [hostOps1] c main_v4
      = windows (zeroF (F := F)) (m ((c : Thread nD τ).loc main_arg0)) := by
  unfold Pipeline.afterTail₀
  show StableHlo.after hostOps1 _ (Proc.devRef .tc main_v4) = _
  after_results
  rw [(Pipeline.withArrays_arr spec0 launch0.win.arr_inj c _ _ 1).trans (final m c)]
  exact view_rows _

/-- The second result after the host operations that follow the region. -/
theorem tail_v9 (c : Dev nD) :
    Pipeline.afterTail₀ cfgs (dats m) 0 (V0 m) [hostOps1] c main_v9 = maskK (F := F) := by
  unfold Pipeline.afterTail₀
  show StableHlo.after hostOps1 _ (Proc.devRef .tc main_v9) = _
  after_results
  rfl

/-- THE RUN: every weakly fair execution terminates with the first result the windows array of the launch signal,
    the second the mask, and the signal unchanged. -/
theorem run : θ_run defs (onTc (τ := τ) (main (F := F))) ⟨m, fun _ => 0, ρ⟩ fun r => ∀ c : Dev nD,
      r.2.mem ((c : Thread nD τ).loc main_v4) = windows (zeroF (F := F)) (m ((c : Thread nD τ).loc main_arg0))
      ∧ r.2.mem ((c : Thread nD τ).loc main_v9) = maskK (F := F)
      ∧ r.2.mem ((c : Thread nD τ).loc main_arg0) = m ((c : Thread nD τ).loc main_arg0) :=
  (θ_run defs _ _).mono (fun r h c =>
    ⟨((h c).2 main_v4 (Pipeline.mem_restRefs_of main_v4 (by decide) (by decide))).trans (tail_v4 m c),
     ((h c).2 main_v9 (Pipeline.mem_restRefs_of main_v9 (by decide) (by decide))).trans (tail_v9 m c),
     ((h c).2 main_arg0 (Pipeline.mem_restRefs_of main_arg0 (by decide) (by decide))).trans (W_main_arg0 m (dats m) c)⟩)
    (run_main m ρ)

end Cert.KernelIdeal.Hand

end
-- ==== Proof.RefStages.lean ====
/-
  The reference, stage by stage, as functions of the signal.

  The reference forms every sample position `150 p + j` (window `p`, offset `j`), clips it into the row, reads
  the signal there with a gather whose out-of-range reads would be filled, and multiplies by the 0/1 flag of
  "window `p` is whole" (`p < 801`). Each definition below is one stretch of the reference's operations, in order,
  over the same shape facts the printed program states.
-/
import proofs.«419308_j3513283248782_3_alg».proof.ReferenceIdeal

noncomputable section

namespace Cert.ReferenceIdeal.Stages

open Cert.ReferenceIdeal Idealize.ShloMosaic

variable {F : FTy → Type} [FloatOps F] [Facts]
open Facts₀ Facts

/-- Window starts: `150 p` at `p`. -/
def starts : IVec S1000 32 :=
  muli (iotaInDim S1000 32 0) (broadcastInDim S1000 ![] bcast_S_S1000 (constantI S_ 32 150#32))

/-- Sample positions: `150 p + j` at `(p, j)`. -/
def positions : IVec S1000x200 32 :=
  addi
    (broadcastInDim S1000x200 ![0, 1] bcast_S1000x1_S1000x200_0_1 (broadcastInDim S1000x1 ![0] bcast_S1000_S1000x1_0 starts))
    (broadcastInDim S1000x200 ![0, 1] bcast_S1x200_S1000x200_0_1 (broadcastInDim S1x200 ![1] bcast_S200_S1x200_1 (iotaInDim S200 32 0)))

/-- The positions clipped into `[0, 120199]`: the maximum with 0, then the minimum with 120199. -/
def clipped : IVec S1000x200 32 :=
  minsi (broadcastInDim S1000x200 ![] bcast_S_S1000x200 (id (constantI S_ 32 120199#32)))
    (maxsi (broadcastInDim S1000x200 ![] bcast_S_S1000x200 (id (constantI S_ 32 0#32))) positions)

/-- A position below zero counts from the row's end: the row length is added to it. -/
def wrapped : IVec S1000x200 32 :=
  select (cmpi .slt clipped (broadcastInDim S1000x200 ![] bcast_S_S1000x200 (constantI S_ 32 0#32)))
    (addi clipped (broadcastInDim S1000x200 ![] bcast_S_S1000x200 (constantI S_ 32 120200#32))) clipped

/-- The gather's start indices: one word per `(p, j)`. -/
def startIdx : IVec S1000x200x1 32 :=
  broadcastInDim S1000x200x1 ![0, 1] bcast_S1000x200_S1000x200x1_0_1 wrapped

/-- The flag "the start index lies in the row": `0 ≤ · ≤ 120199`, all of its one word. -/
def inRow : IVec S1000x200 1 :=
  Host.reduce IntOp.andi
    (andi (cmpi .sge startIdx (broadcastInDim S1000x200x1 ![] bcast_S_S1000x200x1 (constantI S_ 32 0#32)))
      (cmpi .sle startIdx (broadcastInDim S1000x200x1 ![0, 1, 2] bcast_S1x1x1_S1000x200x1_0_1_2
        (broadcastInDim S1x1x1 ![2] bcast_S1_S1x1x1_2 (constantI S1 32 120199#32)))))
    (constantI S_ 1 1#1) reducesTo_S1000x200x1_S1000x200_d2 h_S_

/-- The signal read at the start indices, a read outside the row replaced by the fill value. -/
def taken (x : FVec F S16x23x120200 .f32) : FVec F S16x23x1000x200 .f32 :=
  select (broadcastInDim S16x23x1000x200 ![2, 3] bcast_S1000x200_S16x23x1000x200_2_3 inRow)
    (Host.gather gather_S16x23x120200_S1000x200x1_S16x23x1000x200_01_2_n_n_2_2_16231 x startIdx)
    (broadcastInDim S16x23x1000x200 ![] bcast_S_S16x23x1000x200 (constant S_ .f32 0x7FC00000#32))

/-- The flag "window `p` is whole": `p < 801`. -/
def whole : IVec S1000 1 :=
  cmpi .slt (iotaInDim S1000 32 0) (broadcastInDim S1000 ![] bcast_S_S1000 (constantI S_ 32 801#32))

/-- The first result: the reads times the flag of their window, as a float. -/
def patches (x : FVec F S16x23x120200 .f32) : FVec F S16x23x1000x200 .f32 :=
  mulf (taken x)
    (broadcastInDim S16x23x1000x200 ![0, 1, 2, 3] bcast_S1x1x1000x1_S16x23x1000x200_0_1_2_3
      (uitofp .f32 (broadcastInDim S1x1x1000x1 ![2] bcast_S1000_S1x1x1000x1_2 whole)))

/-- The second result: the flag of each window as a float, the same for every row. -/
def mask : FVec F S16x23x1000 .f32 :=
  broadcastInDim S16x23x1000 ![2] bcast_S1000_S16x23x1000_2 (uitofp .f32 whole)

end Cert.ReferenceIdeal.Stages

end
-- ==== Proof.RefRun.lean ====
/-
  The reference program's run, read back.

  The reference's @main is a straight line of tensor operations: its own twenty-two, the six of the clipping
  function where it is called, and the twenty-three of the gathering function where it is called (the select of
  the wrap-around among them, itself a called function). Listed in program order they are one line of fifty-one
  operations, each writing a buffer of its own, and the program is that line run from the launch contents. What a
  buffer holds at the end is then the composition of the operations that lead to it: the windows array is
  the stage-by-stage term of the signal, the mask the flag of each window, and the signal is written by nothing.
-/
import proofs.«419308_j3513283248782_3_alg».proof.ReferenceIdeal
import proofs.«419308_j3513283248782_3_alg».proof.Proof.RefStages
import Idealize.ShloMosaic.Lib.StableHlo.Run

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- The reference's operations in program order, each called function's where its call stands: the positions
    (twelve operations), their clipping (six), the wrap-around, the start indices, the in-row flag, the gather
    and its fill (twenty-three), then the whole-window flag and the two results (ten). -/
abbrev ops : List (HloOp τ sig (Elt F)) :=
  [ -- the positions 150 p + j
    nullary main_v0 (iotaInDim S1000 32 0),
    nullary main_c (constantI S_ 32 150#32),
    unary main_c main_v1 (broadcastInDim S1000 ![] bcast_S_S1000 : (⟨S_, .i32⟩ : BufTy).Contents (Elt F) → (⟨S1000, .i32⟩ : BufTy).Contents (Elt F)),
    binary main_v0 main_v1 main_v2 (muli : (⟨S1000, .i32⟩ : BufTy).Contents (Elt F) → (⟨S1000, .i32⟩ : BufTy).Contents (Elt F) → (⟨S1000, .i32⟩ : BufTy).Contents (Elt F)),
    unary main_v2 main_v3 (broadcastInDim S1000x1 ![0] bcast_S1000_S1000x1_0 : (⟨S1000, .i32⟩ : BufTy).Contents (Elt F) → (⟨S1000x1, .i32⟩ : BufTy).Contents (Elt F)),
    nullary main_v4 (iotaInDim S200 32 0),
    unary main_v4 main_v5 (broadcastInDim S1x200 ![1] bcast_S200_S1x200_1 : (⟨S200, .i32⟩ : BufTy).Contents (Elt F) → (⟨S1x200, .i32⟩ : BufTy).Contents (Elt F)),
    unary main_v3 main_v6 (broadcastInDim S1000x200 ![0, 1] bcast_S1000x1_S1000x200_0_1 : (⟨S1000x1, .i32⟩ : BufTy).Contents (Elt F) → (⟨S1000x200, .i32⟩ : BufTy).Contents (Elt F)),
    unary main_v5 main_v7 (broadcastInDim S1000x200 ![0, 1] bcast_S1x200_S1000x200_0_1 : (⟨S1x200, .i32⟩ : BufTy).Contents (Elt F) → (⟨S1000x200, .i32⟩ : BufTy).Contents (Elt F)),
    binary main_v6 main_v7 main_v8 (addi : (⟨S1000x200, .i32⟩ : BufTy).Contents (Elt F) → (⟨S1000x200, .i32⟩ : BufTy).Contents (Elt F) → (⟨S1000x200, .i32⟩ : BufTy).Contents (Elt F)),
    nullary main_c_0 (constantI S_ 32 0#32),
    nullary main_c_1 (constantI S_ 32 120199#32),
    -- the clipping function at its call: the maximum with the lower bound, then the minimum with the upper
    TRef.unary (.of main_c_0) main_call0.v0 id,
    TRef.unary main_call0.v0 main_call0.v1 (broadcastInDim S1000x200 ![] bcast_S_S1000x200),
    TRef.binary main_call0.v1 (.of main_v8) main_call0.v2 maxsi,
    TRef.unary (.of main_c_1) main_call0.v3 id,
    TRef.unary main_call0.v3 main_call0.v4 (broadcastInDim S1000x200 ![] bcast_S_S1000x200),
    TRef.binary main_call0.v4 main_call0.v2 main_call0.v5 minsi,
    -- the gathering function at its call: a negative position counts from the row's end
    TRef.nullary main_call1.c (constantI S_ 32 0#32),
    TRef.unary main_call1.c main_call1.v0 (broadcastInDim S1000x200 ![] bcast_S_S1000x200),
    TRef.binary (.of main_v9) main_call1.v0 main_call1.v1 (cmpi .slt),
    TRef.nullary main_call1.c_0 (constantI S_ 32 120200#32),
    TRef.unary main_call1.c_0 main_call1.v2 (broadcastInDim S1000x200 ![] bcast_S_S1000x200),
    TRef.binary (.of main_v9) main_call1.v2 main_call1.v3 addi,
    TRef.ternary main_call1.v1 main_call1.v3 (.of main_v9) main_call1.call0.v0 select,
    -- the start indices, and the flag that each lies in the row
    TRef.unary main_call1.call0.v0 main_call1.v5 (broadcastInDim S1000x200x1 ![0, 1] bcast_S1000x200_S1000x200x1_0_1),
    TRef.nullary main_call1.c_1 (constantI S1 32 120199#32),
    TRef.nullary main_call1.c_2 (constantI S_ 32 0#32),
    TRef.unary main_call1.c_2 main_call1.v6 (broadcastInDim S1000x200x1 ![] bcast_S_S1000x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S1000x200x1 ![0, 1, 2] bcast_S1x1x1_S1000x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1000x200x1_S1000x200_d2 h_S_),
    -- the gather, and the fill where the flag is clear
    TRef.binary (.of main_arg0) main_call1.v5 main_call1.v13 (fun x i => Host.gather gather_S16x23x120200_S1000x200x1_S16x23x1000x200_01_2_n_n_2_2_16231 x i),
    TRef.unary main_call1.v12 main_call1.v14 (broadcastInDim S16x23x1000x200 ![2, 3] bcast_S1000x200_S16x23x1000x200_2_3),
    TRef.nullary main_call1.cst (constant S_ .f32 0x7FC00000#32),
    TRef.unary main_call1.cst main_call1.v15 (broadcastInDim S16x23x1000x200 ![] bcast_S_S16x23x1000x200),
    TRef.ternary main_call1.v14 main_call1.v13 main_call1.v15 main_call1.v16 select,
    -- the whole-window flag, and the two results
    nullary main_v11 (iotaInDim S1000 32 0),
    nullary main_c_2 (constantI S_ 32 801#32),
    unary main_c_2 main_v12 (broadcastInDim S1000 ![] bcast_S_S1000 : (⟨S_, .i32⟩ : BufTy).Contents (Elt F) → (⟨S1000, .i32⟩ : BufTy).Contents (Elt F)),
    binary main_v11 main_v12 main_v13 (cmpi .slt : (⟨S1000, .i32⟩ : BufTy).Contents (Elt F) → (⟨S1000, .i32⟩ : BufTy).Contents (Elt F) → (⟨S1000, .i1⟩ : BufTy).Contents (Elt F)),
    unary main_v13 main_v14 (broadcastInDim S1x1x1000x1 ![2] bcast_S1000_S1x1x1000x1_2 : (⟨S1000, .i1⟩ : BufTy).Contents (Elt F) → (⟨S1x1x1000x1, .i1⟩ : BufTy).Contents (Elt F)),
    unary main_v14 main_v15 (uitofp .f32 : (⟨S1x1x1000x1, .i1⟩ : BufTy).Contents (Elt F) → (⟨S1x1x1000x1, .f32⟩ : BufTy).Contents (Elt F)),
    unary main_v15 main_v16 (broadcastInDim S16x23x1000x200 ![0, 1, 2, 3] bcast_S1x1x1000x1_S16x23x1000x200_0_1_2_3 : (⟨S1x1x1000x1, .f32⟩ : BufTy).Contents (Elt F) → (⟨S16x23x1000x200, .f32⟩ : BufTy).Contents (Elt F)),
    binary main_v10 main_v16 main_v17 (mulf : (⟨S16x23x1000x200, .f32⟩ : BufTy).Contents (Elt F) → (⟨S16x23x1000x200, .f32⟩ : BufTy).Contents (Elt F) → (⟨S16x23x1000x200, .f32⟩ : BufTy).Contents (Elt F)),
    unary main_v13 main_v18 (uitofp .f32 : (⟨S1000, .i1⟩ : BufTy).Contents (Elt F) → (⟨S1000, .f32⟩ : BufTy).Contents (Elt F)),
    unary main_v18 main_v19 (broadcastInDim S16x23x1000 ![2] bcast_S1000_S16x23x1000_2 : (⟨S1000, .f32⟩ : BufTy).Contents (Elt F) → (⟨S16x23x1000, .f32⟩ : BufTy).Contents (Elt F)) ]

-- fifty-one sequencing steps re-associated: the rewrite under the chain recurses once per statement
set_option maxRecDepth 1024 in
/-- @main is that straight line: the called functions unfolded at their calls and the call records at their
    fields, both sides are one chain of steps once sequencing is re-associated. -/
theorem main_eq (c : Dev nD) : main (F := F) c = seq ops := by
  simp only [main, fn_clip.body, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., unary_bufs_sub .., binary_bufs_sub .., unary_bufs_sub .., nullary_bufs_sub ..,
    unary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., nullary_bufs_sub .., unary_bufs_sub .., binary_bufs_sub .., unary_bufs_sub .., unary_bufs_sub ..,
    unary_bufs_sub .., binary_bufs_sub .., unary_bufs_sub .., unary_bufs_sub ..⟩

attribute [local irreducible] Host.reduce Host.gather in
set_option maxRecDepth 8192 in
/-- The windows buffer after the line: each operation's result at its own buffer is its function of its operands'
    buffers, and following the operands back to the signal composes the stages in order. A called function's
    operation moves its operands and result between the value's type and the buffer's, which at these literal
    references are the same type, so the move is the identity. The reduction and the gather stay folded: the
    equation never looks inside them. -/
theorem patches_eq (V : Valuation τ sig (Elt F)) :
    after ops V (main_v17 : DevRef τ sig) = Stages.patches (V (main_arg0 : DevRef τ sig)) := by
  after_results_simp
  simp only [TRef.ofBuf, TRef.toBuf, cast_eq]
  rfl

set_option maxRecDepth 8192 in
/-- The mask buffer after the line: the whole-window flag as a float, broadcast over the rows. -/
theorem mask_eq (V : Valuation τ sig (Elt F)) :
    after ops V (main_v19 : DevRef τ sig) = Stages.mask (F := F) := by
  after_results_simp
  rfl

set_option maxRecDepth 8192 in
/-- No operation writes the signal's buffer. -/
theorem arg0_eq (V : Valuation τ sig (Elt F)) :
    after ops V (main_arg0 : DevRef τ sig) = V (main_arg0 : DevRef τ sig) := by
  after_results_simp

/-- On the device, for any float values, from any memory with zero counters: every weakly fair execution of the
    reference terminates with the windows buffer at the stage-by-stage term of the signal, the mask buffer at the
    whole-window flags, and the signal unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = Stages.patches (m ((c.tc : Thread nD τ).loc main_arg0))
      ∧ r.2.mem ((c.tc : Thread nD τ).loc main_v19) = Stages.mask (F := F)
      ∧ r.2.mem ((c.tc : Thread nD τ).loc main_arg0) = m ((c.tc : Thread nD τ).loc main_arg0) :=
  (θ_run defs _ _).mono (fun _ h c => ⟨(h c main_v17).trans (patches_eq _), (h c main_v19).trans (mask_eq _),
      (h c main_arg0).trans (arg0_eq _)⟩)
    (run_seq scopedRefs_eq scopedSems_eq defs main (fun _ => ops) main_eq (fun _ => ops_sub) m ρ)

end Cert.ReferenceIdeal.HandRun

end
-- ==== Proof.LibClampIx.lean ====
/-! # A gather's start index: a 32-bit word read signed and clamped into an axis

StableHLO's gather reads each component of a start index as a signed integer and clamps it into
`[0, size − slice size]`. On an axis of `U` positions whose slice has one position that is
`min (max w 0) (U − 1)`: `Int.toNat` sends the negative words to `0`, `min` cuts at `U − 1`. This file names
that position as an element of `Fin U`, so that two programs gathering along the same axis are seen to read
the same place, and records two facts about words that already lie on the axis. -/

namespace Cert.Hand

/-- The position on an axis of `U` places that the word `w`, read signed, is clamped to. -/
def clampIx (U : Nat) (hU : 0 < U) (w : BitVec 32) : Fin U := ⟨min w.toInt.toNat (U - 1), by omega⟩

theorem clampIx_val (U : Nat) (hU : 0 < U) (w : BitVec 32) :
    (clampIx U hU w).val = min w.toInt.toNat (U - 1) := rfl

/-- A word that lies on the axis is its own clamped position. -/
theorem clampIx_val_of_mem (U : Nat) (hU : 0 < U) (w : BitVec 32) (h0 : 0 ≤ w.toInt) (hlt : w.toInt < (U : Int)) :
    (clampIx U hU w).val = w.toInt.toNat := by
  rw [clampIx_val]
  have : w.toInt.toNat < U := by omega
  omega

/-- As an integer, too. -/
theorem clampIx_val_int_of_mem (U : Nat) (hU : 0 < U) (w : BitVec 32) (h0 : 0 ≤ w.toInt) (hlt : w.toInt < (U : Int)) :
    ((clampIx U hU w).val : Int) = w.toInt := by
  rw [clampIx_val_of_mem U hU w h0 hlt]; omega

/-- A word that is not negative as a signed integer is not signed-below zero. -/
theorem slt_zero_of_nonneg (w : BitVec 32) (h0 : 0 ≤ w.toInt) : BitVec.slt w 0#32 = false := by
  simp only [BitVec.slt, BitVec.toInt_zero]
  exact decide_eq_false (by omega)

/-- The normalisation of a possibly negative position — add the axis' length to a word below zero — leaves a
    word that is not negative alone. -/
theorem wrap_of_nonneg (w u : BitVec 32) (h0 : 0 ≤ w.toInt) : (if BitVec.slt w 0#32 then w + u else w) = w := by
  rw [slt_zero_of_nonneg w h0]; rfl

end Cert.Hand
-- ==== Proof.LibGatherLast.lean ====
/- # A gather along the last axis of a rank-3 operand, read at an index

What `x[..., idx]` of an array `x : [A, B, U]` at an integer array `idx : [P, Q]` lowers to: a gather with offset
axes `[0, 1]`, collapsed slice axis `[2]`, start index map `[2]`, slice sizes `[A, B, 1]` and the index vector on
axis 2 of the start indices, taken as `[P, Q, 1]`. The result has shape `[A, B, P, Q]`: its first two axes run over the
operand's first two (whole slices, starting at 0), its last two over the start indices. Result element
`(a, b, p, q)` is `x` at `(a, b, k)`, where `k` is the word `idx[p, q, 0]` read signed and clamped onto the last
axis. The extents are variables; the conditions on the dimension numbers are a hypothesis, decided on the literal
shapes of a program. -/
import proofs.«419308_j3513283248782_3_alg».proof.Proof.LibClampIx
import Idealize.ShloMosaic.Lib.ValueIdx

noncomputable section

namespace Cert.Hand

open Idealize.ShloMosaic Idealize.ShloMosaic.ValueIdx

section GatherLast
variable {α : Type} {A B U P Q : Nat}

/-- Those dimension numbers for an operand `[A, B, U]`, start indices `[P, Q, 1]` and result `[A, B, P, Q]`. -/
abbrev dimsABU (A B U P Q : Nat)
    (wf : GatherDims.WF ⟨3, ![A, B, U]⟩ ⟨3, ![P, Q, 1]⟩ ⟨4, ![A, B, P, Q]⟩ [0, 1] [2] [] [2] [] 2 ![A, B, 1]) :
    GatherDims ⟨3, ![A, B, U]⟩ ⟨3, ![P, Q, 1]⟩ ⟨4, ![A, B, P, Q]⟩ where
  offsetDims := [0, 1]
  collapsedSliceDims := [2]
  operandBatchingDims := []
  startIndicesBatchingDims := []
  startIndexMap := [2]
  indexVectorDim := 2
  sliceSizes := ![A, B, 1]
  wf := wf

/-- THE GATHER READ AT `(a, b, p, q)`: the operand at `(a, b, ·)`, the last coordinate the start index
    `idx[p, q, 0]` read signed and clamped into `[0, U − 1]`. -/
theorem gather_ABU_apply (hU : 0 < U)
    (wf : GatherDims.WF ⟨3, ![A, B, U]⟩ ⟨3, ![P, Q, 1]⟩ ⟨4, ![A, B, P, Q]⟩ [0, 1] [2] [] [2] [] 2 ![A, B, 1])
    (x : (⟨3, ![A, B, U]⟩ : Shape).Idx → α) (idx : IVec ⟨3, ![P, Q, 1]⟩ 32)
    (a : Fin A) (b : Fin B) (p : Fin P) (q : Fin Q) :
    Host.gather (dimsABU A B U P Q wf) x idx (ix4 a b p q) = x (ix3 a b (clampIx U hU (idx (ix3 p q 0)))) := by
  unfold Host.gather
  congr 1
  funext e
  refine Fin.ext ?_
  match e with
  | ⟨0, h0⟩ =>
    -- an offset axis: the slice starts at 0 and the result's coordinate 0 runs along it
    show (dimsABU A B U P Q wf).start (ix4 a b p q) idx 0 + (dimsABU A B U P Q wf).batchCoord (ix4 a b p q) 0
      + (dimsABU A B U P Q wf).offCoord (ix4 a b p q) 0 = a.val
    rw [GatherDims.batchCoord_eq_zero _ _ _ List.not_mem_nil]
    unfold GatherDims.start GatherDims.offCoord
    rw [dif_neg (show (0 : Fin 3) ∉ (dimsABU A B U P Q wf).startIndexMap from
        (by decide : (0 : Fin 3) ∉ ([2] : List (Fin 3)))),
      dif_pos (show (0 : Fin 3) ∈ (dimsABU A B U P Q wf).sKept from
        (GatherDims.mem_sKept _ _).mpr ⟨(by decide : (0 : Fin 3) ∉ ([2] : List (Fin 3))), List.not_mem_nil⟩)]
    simp only [Nat.add_zero, Nat.zero_add]
    rfl
  | ⟨1, h1⟩ =>
    show (dimsABU A B U P Q wf).start (ix4 a b p q) idx 1 + (dimsABU A B U P Q wf).batchCoord (ix4 a b p q) 1
      + (dimsABU A B U P Q wf).offCoord (ix4 a b p q) 1 = b.val
    rw [GatherDims.batchCoord_eq_zero _ _ _ List.not_mem_nil]
    unfold GatherDims.start GatherDims.offCoord
    rw [dif_neg (show (1 : Fin 3) ∉ (dimsABU A B U P Q wf).startIndexMap from
        (by decide : (1 : Fin 3) ∉ ([2] : List (Fin 3)))),
      dif_pos (show (1 : Fin 3) ∈ (dimsABU A B U P Q wf).sKept from
        (GatherDims.mem_sKept _ _).mpr ⟨(by decide : (1 : Fin 3) ∉ ([2] : List (Fin 3))), List.not_mem_nil⟩)]
    simp only [Nat.add_zero, Nat.zero_add]
    rfl
  | ⟨2, h2⟩ =>
    -- the collapsed axis: no offset; the start is the clamped start index
    show (dimsABU A B U P Q wf).start (ix4 a b p q) idx 2 + (dimsABU A B U P Q wf).batchCoord (ix4 a b p q) 2
      + (dimsABU A B U P Q wf).offCoord (ix4 a b p q) 2 = (clampIx U hU (idx (ix3 p q 0))).val
    rw [GatherDims.batchCoord_eq_zero _ _ _ List.not_mem_nil,
      GatherDims.offCoord_eq_zero _ _ _ (show (2 : Fin 3) ∉ (dimsABU A B U P Q wf).sKept from
        fun h => ((GatherDims.mem_sKept _ _).mp h).1 (List.mem_singleton.mpr rfl))]
    simp only [Nat.add_zero]
    unfold GatherDims.start
    rw [dif_pos (show (2 : Fin 3) ∈ (dimsABU A B U P Q wf).startIndexMap from List.mem_singleton.mpr rfl)]
    have hsi : (dimsABU A B U P Q wf).siIdx (ix4 a b p q) ⟨List.idxOf (2 : Fin 3) (dimsABU A B U P Q wf).startIndexMap,
        List.idxOf_lt_length_iff.2 (List.mem_singleton.mpr rfl)⟩ = ix3 p q 0 := by
      funext c; refine Fin.ext ?_
      match c with
      | ⟨0, _⟩ => rfl
      | ⟨1, _⟩ => rfl
      | ⟨2, _⟩ => rfl
    rw [hsi]
    rfl

end GatherLast

end Cert.Hand

end
-- ==== Proof.RefValue.lean ====
/-
  The reference's first result is the windows array.

  Read entry by entry. The position of entry `j` of window `p` is the word `150 p + j`, below `150000`, so no
  product or sum wraps and every signed comparison is the comparison of the naturals. Clipping into `[0, 120199]`
  gives `min (150 p + j) 120199`, which is never negative, so the step that counts a negative position from the row's
  end leaves it alone, and it lies in the row, so the gather reads the signal exactly there and the fill for a read
  outside the row is never taken. The flag of window `p` is 1 for `p < 801` and 0 otherwise; as an extended real it
  multiplies the read by 1 or by 0. For `p < 801` the clip does nothing (`150 p + j ≤ 120199`), so the entry is the
  sample `150 p + j`; for `p ≥ 801` the entry is 0.
-/
import proofs.«419308_j3513283248782_3_alg».proof.Proof.RefStages
import proofs.«419308_j3513283248782_3_alg».proof.Proof.Spec
import proofs.«419308_j3513283248782_3_alg».proof.Proof.LibGatherLast
import Idealize.ShloMosaic.Lib.Pipeline.Value
import Idealize.ShloMosaic.Lib.StableHlo.Predicate
import Idealize.ShloMosaic.Lib.Affine
import Idealize.ShloMosaic.PureOps.Reduce
import Idealize.ShloMosaic.PureOps.Ideal

noncomputable section

namespace Cert.ReferenceIdeal.RefValue

open Cert.ReferenceIdeal Cert.ReferenceIdeal.Stages Idealize.ShloMosaic Idealize.ShloMosaic.ValueIdx
open Idealize.ShloMosaic.StableHlo.Predicate (toInt_ofNat_small)
open Cert.Hand Cert.Windows

/-! ## Words below 2³¹ -/

/-- The maximum with zero of a small natural's word is the word. -/
theorem maxsi_zero_ofNat (n : Nat) (hn : n < 2 ^ 31) : IntOp.maxsi 0#32 (BitVec.ofNat 32 n) = BitVec.ofNat 32 n := by
  unfold IntOp.maxsi
  rw [slt_zero_of_nonneg (BitVec.ofNat 32 n) (by rw [toInt_ofNat_small n hn]; omega)]
  rfl

/-- The signed minimum of two small naturals' words is the word of their minimum. -/
theorem minsi_ofNat (c n : Nat) (hc : c < 2 ^ 31) (hn : n < 2 ^ 31) :
    IntOp.minsi (BitVec.ofNat 32 c) (BitVec.ofNat 32 n) = BitVec.ofNat 32 (min n c) := by
  unfold IntOp.minsi
  by_cases h : c < n
  · rw [if_pos (BitVec.slt_iff_toInt_lt.mpr (by rw [toInt_ofNat_small c hc, toInt_ofNat_small n hn]; omega)),
      Nat.min_eq_right (by omega)]
  · rw [if_neg (fun hh => h (by
        have := BitVec.slt_iff_toInt_lt.mp hh
        rw [toInt_ofNat_small c hc, toInt_ofNat_small n hn] at this; omega)),
      Nat.min_eq_left (by omega)]

/-- A small natural's word is not signed-below zero. -/
theorem cmpi_slt_zero_ofNat (n : Nat) (hn : n < 2 ^ 31) : IntOp.cmpi .slt (BitVec.ofNat 32 n) 0#32 = 0#1 :=
  eq_zero_of_ne_one fun h => by
    have := IntOp.cmpi_slt.mp h
    rw [toInt_ofNat_small n hn] at this
    have h0 : (0#32 : BitVec 32).toInt = 0 := by decide
    omega

/-! ## A conjunction over an axis of flags that are all set -/

theorem foldl_andi_one {ι : Type} (X : ι → BitVec 1) (hX : ∀ i, X i = 1#1) (l : List ι) :
    l.foldl (fun r i => IntOp.andi r (X i)) 1#1 = 1#1 := by
  induction l with
  | nil => rfl
  | cons a l ih =>
    have h1 : IntOp.andi 1#1 (X a) = 1#1 := by rw [hX a]; decide
    show l.foldl (fun r i => IntOp.andi r (X i)) (IntOp.andi 1#1 (X a)) = 1#1
    rw [h1]; exact ih

/-- A reduction by `and` from a set flag over flags that are all set is a set flag. -/
theorem reduce_andi_one {s t u : Shape} {axes : List (Fin s.rank)} (X : s.Idx → BitVec 1) (init : u.Idx → BitVec 1)
    (h : s.ReducesTo axes t) (hu : 0 < u.numel) (hX : ∀ i, X i = 1#1) (hinit : init (Shape.Idx.first hu) = 1#1)
    (j : t.Idx) : Host.reduce IntOp.andi X init h hu j = 1#1 := by
  rw [Host.reduce_eq_foldl, hinit]
  exact foldl_andi_one X hX _

variable [Facts]
open Facts₀ Facts

/-! ## The positions -/

theorem starts_apply (p : Fin 1000) : starts (ix1 p) = BitVec.ofNat 32 (150 * p.val) := by
  show IntOp.muli (BitVec.ofNat 32 p.val) 150#32 = _
  show BitVec.ofNat 32 p.val * BitVec.ofNat 32 150 = _
  rw [← BitVec.ofNat_mul, Nat.mul_comm]

theorem positions_apply (p : Fin 1000) (j : Fin 200) :
    positions (ix2 p j) = BitVec.ofNat 32 (150 * p.val + j.val) := by
  have h1 : broadcastInDim S1000x200 ![0, 1] bcast_S1000x1_S1000x200_0_1
      (broadcastInDim S1000x1 ![0] bcast_S1000_S1000x1_0 starts) (ix2 p j) = starts (ix1 p) := by
    rw [broadcastInDim_apply _ _ _ (ix2 p j) (ix2 p (0 : Fin 1))
        (fun a => by match a with | ⟨0, _⟩ => rfl | ⟨1, _⟩ => rfl),
      broadcastInDim_apply _ _ _ (ix2 p (0 : Fin 1)) (ix1 p) (fun a => by match a with | ⟨0, _⟩ => rfl)]
  have h2 : broadcastInDim S1000x200 ![0, 1] bcast_S1x200_S1000x200_0_1
      (broadcastInDim S1x200 ![1] bcast_S200_S1x200_1 (iotaInDim S200 32 0)) (ix2 p j) = BitVec.ofNat 32 j.val := by
    rw [broadcastInDim_apply _ _ _ (ix2 p j) (ix2 (0 : Fin 1) j)
        (fun a => by match a with | ⟨0, _⟩ => rfl | ⟨1, _⟩ => rfl),
      broadcastInDim_apply _ _ _ (ix2 (0 : Fin 1) j) (ix1 j) (fun a => by match a with | ⟨0, _⟩ => rfl)]
    rfl
  refine (congrArg₂ IntOp.addi h1 h2).trans ?_
  rw [starts_apply]
  show BitVec.ofNat 32 (150 * p.val) + BitVec.ofNat 32 j.val = _
  rw [← BitVec.ofNat_add]

theorem clipped_apply (p : Fin 1000) (j : Fin 200) :
    clipped (ix2 p j) = BitVec.ofNat 32 (min (150 * p.val + j.val) 120199) := by
  show IntOp.minsi 120199#32 (IntOp.maxsi 0#32 (positions (ix2 p j))) = _
  have hp := p.isLt
  have hj := j.isLt
  rw [positions_apply, maxsi_zero_ofNat _ (by omega)]
  exact minsi_ofNat 120199 _ (by omega) (by omega)

theorem wrapped_apply (p : Fin 1000) (j : Fin 200) :
    wrapped (ix2 p j) = BitVec.ofNat 32 (min (150 * p.val + j.val) 120199) := by
  show Scalar.select (IntOp.cmpi .slt (clipped (ix2 p j)) 0#32) (IntOp.addi (clipped (ix2 p j)) 120200#32)
    (clipped (ix2 p j)) = _
  rw [clipped_apply, cmpi_slt_zero_ofNat _ (by omega), select_zero]

theorem startIdx_apply (p : Fin 1000) (j : Fin 200) :
    startIdx (ix3 p j (0 : Fin 1)) = BitVec.ofNat 32 (min (150 * p.val + j.val) 120199) := by
  show broadcastInDim S1000x200x1 ![0, 1] bcast_S1000x200_S1000x200x1_0_1 wrapped (ix3 p j (0 : Fin 1)) = _
  rw [broadcastInDim_apply _ _ _ (ix3 p j (0 : Fin 1)) (ix2 p j)
      (fun a => by match a with | ⟨0, _⟩ => rfl | ⟨1, _⟩ => rfl)]
  exact wrapped_apply p j

/-- As a signed integer the start index is the clipped position. -/
theorem startIdx_toInt (p : Fin 1000) (j : Fin 200) :
    (startIdx (ix3 p j (0 : Fin 1))).toInt = ((min (150 * p.val + j.val) 120199 : Nat) : Int) := by
  rw [startIdx_apply, toInt_ofNat_small _ (by omega)]

/-- Every start index lies in the row. -/
theorem inRow_apply (p : Fin 1000) (j : Fin 200) : inRow (ix2 p j) = 1#1 := by
  unfold inRow
  refine reduce_andi_one _ _ _ _ (fun i => ?_) rfl _
  obtain ⟨p', j', z, rfl⟩ : ∃ p' j' z, i = ix3 p' j' z := ⟨i 0, i 1, i 2, eq_ix3 i⟩
  obtain rfl : z = 0 := Subsingleton.elim _ _
  have ht := startIdx_toInt p' j'
  refine IntOp.andi_eq_one.mpr ⟨?_, ?_⟩
  · refine IntOp.cmpi_sge.mpr ?_
    show (0#32 : BitVec 32).toInt ≤ (startIdx (ix3 p' j' (0 : Fin 1))).toInt
    rw [ht, show (0#32 : BitVec 32).toInt = 0 from by decide]; omega
  · refine IntOp.cmpi_sle.mpr ?_
    show (startIdx (ix3 p' j' (0 : Fin 1))).toInt ≤ (120199#32 : BitVec 32).toInt
    rw [ht, show (120199#32 : BitVec 32).toInt = 120199 from by decide]; omega

/-! ## The window flag -/

theorem whole_apply (p : Fin 1000) : whole (ix1 p) = 1#1 ↔ p.val < 801 := by
  show IntOp.cmpi .slt (BitVec.ofNat 32 p.val) (BitVec.ofNat 32 801) = 1#1 ↔ _
  have hp := p.isLt
  rw [IntOp.cmpi_slt, toInt_ofNat_small _ (by omega), toInt_ofNat_small 801 (by omega)]
  omega

/-! ## The reads -/

/-- The clipped position as a place in the row. -/
theorem clipped_lt (p : Fin 1000) (j : Fin 200) : min (150 * p.val + j.val) 120199 < 120200 := by omega

/-- The gather's place for `(p, j)` is the clipped position. -/
theorem clampIx_startIdx (p : Fin 1000) (j : Fin 200) :
    clampIx 120200 (by decide) (startIdx (ix3 p j (0 : Fin 1))) = ⟨min (150 * p.val + j.val) 120199, clipped_lt p j⟩ := by
  refine Fin.ext ?_
  have ht := startIdx_toInt p j
  rw [clampIx_val_of_mem 120200 (by decide) _ (by rw [ht]; omega) (by rw [ht]; omega), ht]
  rfl

/-- The read at `(b, c, p, j)` is the signal at the clipped position: the read is inside the row, so the fill is
    not taken. -/
theorem taken_apply {F : FTy → Type} [FloatOps F] (x : FVec F S16x23x120200 .f32)
    (b : Fin 16) (c : Fin 23) (p : Fin 1000) (j : Fin 200) :
    taken x (ix4 b c p j) = x (ix3 b c ⟨min (150 * p.val + j.val) 120199, clipped_lt p j⟩) := by
  have hflag : broadcastInDim S16x23x1000x200 ![2, 3] bcast_S1000x200_S16x23x1000x200_2_3 inRow (ix4 b c p j) = 1#1 := by
    rw [broadcastInDim_apply _ _ _ (ix4 b c p j) (ix2 p j) (fun a => by match a with | ⟨0, _⟩ => rfl | ⟨1, _⟩ => rfl)]
    exact inRow_apply p j
  have hread : Host.gather gather_S16x23x120200_S1000x200x1_S16x23x1000x200_01_2_n_n_2_2_16231 x startIdx (ix4 b c p j)
      = x (ix3 b c ⟨min (150 * p.val + j.val) 120199, clipped_lt p j⟩) := by
    show Host.gather (dimsABU 16 23 120200 1000 200
      gather_S16x23x120200_S1000x200x1_S16x23x1000x200_01_2_n_n_2_2_16231_wf) x startIdx (ix4 b c p j) = _
    rw [gather_ABU_apply (by decide), clampIx_startIdx]
  unfold taken
  rw [select_apply, hflag, select_one, hread]

/-! ## The flag as a factor -/

/-- The factor at `(b, c, p, j)` is the flag of window `p` as an extended real. -/
theorem factor_apply (b : Fin 16) (c : Fin 23) (p : Fin 1000) (j : Fin 200) :
    broadcastInDim S16x23x1000x200 ![0, 1, 2, 3] bcast_S1x1x1000x1_S16x23x1000x200_0_1_2_3
      (uitofp (F := Ideal) .f32 (broadcastInDim S1x1x1000x1 ![2] bcast_S1000_S1x1x1000x1_2 whole)) (ix4 b c p j)
      = (((whole (ix1 p)).toNat : ℝ) : EReal) := by
  rw [broadcastInDim_apply _ _ _ (ix4 b c p j) (ix4 (0 : Fin 1) (0 : Fin 1) p (0 : Fin 1))
      (fun a => by match a with | ⟨0, _⟩ => rfl | ⟨1, _⟩ => rfl | ⟨2, _⟩ => rfl | ⟨3, _⟩ => rfl)]
  show (((broadcastInDim S1x1x1000x1 ![2] bcast_S1000_S1x1x1000x1_2 whole
    (ix4 (0 : Fin 1) (0 : Fin 1) p (0 : Fin 1))).toNat : ℝ) : EReal) = _
  rw [broadcastInDim_apply _ _ _ (ix4 (0 : Fin 1) (0 : Fin 1) p (0 : Fin 1)) (ix1 p)
      (fun a => by match a with | ⟨0, _⟩ => rfl)]

/-! ## The first result -/

/-- THE REFERENCE'S FIRST RESULT IS THE WINDOWS ARRAY, padded with zero. -/
theorem patches_eq (x : FVec Ideal Cert.ReferenceIdeal.S16x23x120200 .f32) :
    Cert.ReferenceIdeal.Stages.patches (F := Ideal) x = Cert.Windows.windows (0 : EReal) x := by
  funext i
  obtain ⟨b, c, p, j, rfl⟩ : ∃ b c p j, i = ix4 b c p j := ⟨i 0, i 1, i 2, i 3, eq_ix4 i⟩
  rw [windows_apply]
  show taken x (ix4 b c p j) * broadcastInDim S16x23x1000x200 ![0, 1, 2, 3] bcast_S1x1x1000x1_S16x23x1000x200_0_1_2_3
      (uitofp (F := Ideal) .f32 (broadcastInDim S1x1x1000x1 ![2] bcast_S1000_S1x1x1000x1_2 whole)) (ix4 b c p j) = _
  rw [factor_apply, taken_apply]
  have hj := j.isLt
  by_cases h : p.val < 801
  · rw [windowsAt_of_lt _ _ _ _ _ _ h, (whole_apply p).mpr h]
    have h1 : (((1#1 : BitVec 1).toNat : ℝ) : EReal) = 1 := by
      rw [show (1#1 : BitVec 1).toNat = 1 from rfl, Nat.cast_one, EReal.coe_one]
    rw [h1, mul_one]
    refine congrArg x ?_
    funext a
    match a with
    | ⟨0, _⟩ => rfl
    | ⟨1, _⟩ => rfl
    | ⟨2, _⟩ => exact Fin.ext (Nat.min_eq_left (by show 150 * p.val + j.val ≤ 120199; omega))
  · rw [windowsAt_of_not_lt _ _ _ _ _ _ h,
      eq_zero_of_ne_one (fun hh => h ((whole_apply p).mp hh))]
    have h0 : (((0#1 : BitVec 1).toNat : ℝ) : EReal) = 0 := by
      rw [show (0#1 : BitVec 1).toNat = 0 from rfl, Nat.cast_zero, EReal.coe_zero]
    rw [h0, mul_zero]

end Cert.ReferenceIdeal.RefValue

end
-- ==== Proof.lean ====
/-
  Strided windows of a signal: the kernel against its reference, over the extended reals.

  The signal is f32[16, 23, 120200]. Window `p` of a row is its 200 samples from sample `150 p` on; 801 windows fit
  whole (the last ends exactly at the row's last sample, `150 · 800 + 199 = 120199`) and the result has 1000 window
  slots, the last 199 of them zero. Both programs also return the flag "window `p` is whole" as a float.

  The kernel pads each of the 368 rows to 802 chunks of 150 samples and, 8 rows at a grid point, copies chunk `p`
  to entries 0..149 of window `p` and the first 50 samples of chunk `p + 1` to entries 150..199: entry `j` of window
  `p` is sample `150 p + j` either way, and no padding sample is ever copied (Proof/KBlock, KPrefix, KFinal, KRun).
  The reference forms the positions `150 p + j`, clips them into the row, gathers, and multiplies by the flag:
  for `p < 801` the position is in the row and the factor is one; for `p ≥ 801` the factor is zero, and a product
  with zero is zero for every extended real, so no finiteness of the signal is used (Proof/RefStages, RefRun,
  RefValue). The two masks are the same term.
-/
import proofs.«419308_j3513283248782_3_alg».proof.Defs
import proofs.«419308_j3513283248782_3_alg».proof.Proof.Gen.Kernel
import proofs.«419308_j3513283248782_3_alg».proof.Proof.Gen.Kernel.Frame
import proofs.«419308_j3513283248782_3_alg».proof.Proof.Gen.KernelIdeal
import proofs.«419308_j3513283248782_3_alg».proof.Proof.Gen.KernelIdeal.Frame
import proofs.«419308_j3513283248782_3_alg».proof.Proof.Gen.ReferenceIdeal
import proofs.«419308_j3513283248782_3_alg».proof.Proof.Gen.Pre_finite_inputs
import proofs.«419308_j3513283248782_3_alg».proof.Proof.KRun
import proofs.«419308_j3513283248782_3_alg».proof.Proof.RefRun
import proofs.«419308_j3513283248782_3_alg».proof.Proof.RefValue
import Idealize.ShloMosaic.Adequacy
import Idealize.ShloMosaic.Init

noncomputable section

namespace Cert.Proof

open Idealize.ShloMosaic Idealize.ShloMosaic.TcCoe Idealize.SL.Sem

/-- The kernel's padding value is the extended real zero. -/
theorem zeroF_ideal : Cert.KernelIdeal.Hand.zeroF (F := Ideal) = (0 : EReal) := Ideal.ofBits_zero_f32

/-- The reference terminates without fault and leaves the signal as it was: its run, the results dropped. -/
theorem frame_ri : Cert.frame_ReferenceIdeal := fun m ρ _ =>
  (θ_run Cert.ReferenceIdeal.defs _ _).mono (fun _ h c => (h c).2.2) (Cert.ReferenceIdeal.HandRun.run (F := Ideal) m ρ)

/-- The reference's mask is the kernel's: one term of the window numbers. -/
theorem mask_eq : Cert.ReferenceIdeal.Stages.mask (F := Ideal) = Cert.KernelIdeal.Hand.maskK (F := Ideal) := rfl

/-- From memories that agree on the signal both programs end with the windows array and the mask. -/
theorem algebraic : Cert.algebraic_KernelIdeal_ReferenceIdeal := by
  intro m ρ m' ρ' _ hagree
  refine ⟨fun c => Cert.Windows.windows (Cert.KernelIdeal.Hand.zeroF (F := Ideal)) (m ((c.tc : Thread _ _).loc Cert.KernelIdeal.main_arg0)),
    fun _ => Cert.KernelIdeal.Hand.maskK (F := Ideal), Cert.KernelIdeal.Hand.run (F := Ideal) m ρ, ?_⟩
  refine (θ_run Cert.ReferenceIdeal.defs _ _).mono (fun _ h c => ⟨(h c).1.trans ?_, (h c).2.1.trans mask_eq, (h c).2.2⟩)
    (Cert.ReferenceIdeal.HandRun.run (F := Ideal) m' ρ')
  rw [Cert.ReferenceIdeal.RefValue.patches_eq, hagree c, zeroF_ideal]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri, trivial, algebraic⟩

end Cert.Proof

end
